-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64x32 : Shape := ⟨5, ![4, 64, 64, 64, 32]⟩
abbrev S_ : Shape := ⟨0, ![]⟩

class Facts : Prop where
  bcast_S_S4x64x64x64x32 : S_.BroadcastsInDim S4x64x64x64x32 (![] : Fin 0 → Fin S4x64x64x64x32.rank)
  reducesTo_S4x64x64x64x32_S_d0_1_2_3_4 : S4x64x64x64x32.ReducesTo [0, 1, 2, 3, 4] S_
  h_S_ : 0 < S_.numel

variable [Facts]

def fn {F : FTy → Type} [FloatOps F] (main_arg0 : FVec F S4x64x64x64x32 .f32) (main_arg1 : FVec F S4x64x64x64x32 .f32) : IVec S_ 1 :=
  let main_v0 : FVec F S4x64x64x64x32 .f32 := Host.absf main_arg0
  let main_cst : FVec F S_ .f32 := constant S_ .f32 0x7F800000#32
  let main_v1 : FVec F S4x64x64x64x32 .f32 := broadcastInDim S4x64x64x64x32 ![] bcast_S_S4x64x64x64x32 main_cst
  let main_v2 : IVec S4x64x64x64x32 1 := cmpf .olt main_v0 main_v1
  let main_c : IVec S_ 1 := constantI S_ 1 1#1
  let main_v3 : IVec S_ 1 := (fun x v => Host.reduce IntOp.andi x v reducesTo_S4x64x64x64x32_S_d0_1_2_3_4 h_S_) main_v2 main_c
  let main_v4 : FVec F S4x64x64x64x32 .f32 := Host.absf main_arg1
  let main_cst_0 : FVec F S_ .f32 := constant S_ .f32 0x7F800000#32
  let main_v5 : FVec F S4x64x64x64x32 .f32 := broadcastInDim S4x64x64x64x32 ![] bcast_S_S4x64x64x64x32 main_cst_0
  let main_v6 : IVec S4x64x64x64x32 1 := cmpf .olt main_v4 main_v5
  let main_c_1 : IVec S_ 1 := constantI S_ 1 1#1
  let main_v7 : IVec S_ 1 := (fun x v => Host.reduce IntOp.andi x v reducesTo_S4x64x64x64x32_S_d0_1_2_3_4 h_S_) main_v6 main_c_1
  let main_v8 : IVec S_ 1 := andi main_v3 main_v7
  main_v8
-- ==== Kernel.lean ====
abbrev S4x64x64x64x32 : Shape := ⟨5, ![4, 64, 64, 64, 32]⟩
abbrev S4x262144x32 : Shape := ⟨3, ![4, 262144, 32]⟩
abbrev S4x32x32 : Shape := ⟨3, ![4, 32, 32]⟩
abbrev S1x16384x32 : Shape := ⟨3, ![1, 16384, 32]⟩
abbrev S1x32x32 : Shape := ⟨3, ![1, 32, 32]⟩
abbrev S16384x32 : Shape := ⟨2, ![16384, 32]⟩
abbrev S32x32 : Shape := ⟨2, ![32, 32]⟩
abbrev S_ : Shape := ⟨0, ![]⟩
abbrev S4x32 : Shape := ⟨2, ![4, 32]⟩
abbrev S4x32x1 : Shape := ⟨3, ![4, 32, 1]⟩

abbrev nBuf : Space → Nat
  | .hbm => 21
  | .vmem => 12
  | .smem => 0
  | _ => 0

abbrev bufTy : (tb : Table) → Fin (tcTables nBuf tb) → BufTy
  | .hbm, ⟨0, _⟩ => ⟨S4x64x64x64x32, .f32⟩
  | .hbm, ⟨1, _⟩ => ⟨S4x64x64x64x32, .f32⟩
  | .hbm, ⟨2, _⟩ => ⟨S4x262144x32, .f32⟩
  | .hbm, ⟨3, _⟩ => ⟨S4x262144x32, .f32⟩
  | .hbm, ⟨4, _⟩ => ⟨S4x32x32, .f32⟩
  | .hbm, ⟨5, _⟩ => ⟨S_, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32x1, .f32⟩
  | .hbm, ⟨11, _⟩ => ⟨S4x32x32, .f32⟩
  | .hbm, ⟨12, _⟩ => ⟨S4x32x32, .f32⟩
  | .hbm, ⟨13, _⟩ => ⟨S4x32x32, .f32⟩
  | .hbm, ⟨14, _⟩ => ⟨S_, .f32⟩
  | .hbm, ⟨15, _⟩ => ⟨S4x32, .f32⟩
  | .hbm, ⟨16, _⟩ => ⟨S4x32x1, .f32⟩
  | .hbm, ⟨17, _⟩ => ⟨S4x32x32, .f32⟩
  | .hbm, ⟨18, _⟩ => ⟨S4x32x32, .f32⟩
  | .hbm, ⟨19, _⟩ => ⟨S4x262144x32, .f32⟩
  | .hbm, ⟨20, _⟩ => ⟨S4x64x64x64x32, .f32⟩
  | .local _ .vmem, ⟨0, _⟩ => ⟨S1x16384x32, .f32⟩
  | .local _ .vmem, ⟨1, _⟩ => ⟨S1x16384x32, .f32⟩
  | .local _ .vmem, ⟨2, _⟩ => ⟨S1x16384x32, .f32⟩
  | .local _ .vmem, ⟨3, _⟩ => ⟨S1x16384x32, .f32⟩
  | .local _ .vmem, ⟨4, _⟩ => ⟨S1x32x32, .f32⟩
  | .local _ .vmem, ⟨5, _⟩ => ⟨S1x32x32, .f32⟩
  | .local _ .vmem, ⟨6, _⟩ => ⟨S1x16384x32, .f32⟩
  | .local _ .vmem, ⟨7, _⟩ => ⟨S1x16384x32, .f32⟩
  | .local _ .vmem, ⟨8, _⟩ => ⟨S1x32x32, .f32⟩
  | .local _ .vmem, ⟨9, _⟩ => ⟨S1x32x32, .f32⟩
  | .local _ .vmem, ⟨10, _⟩ => ⟨S1x16384x32, .f32⟩
  | .local _ .vmem, ⟨11, _⟩ => ⟨S1x16384x32, .f32⟩
  | _, _ => ⟨S4x64x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16384x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16384x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x64x64x64x32_S4x262144x32 : S4x64x64x64x32.ShapeCasts S4x262144x32
  inb_S1x32x32_S1x32x32_0_0_0 : ∀ a, (![0, 0, 0] : Fin 3 → Nat) a + S1x32x32.size a ≤ S1x32x32.size a
  h_S1x32x32 : 0 < S1x32x32.numel
  inb_S1x16384x32_S1x16384x32_0_0_0 : ∀ a, (![0, 0, 0] : Fin 3 → Nat) a + S1x16384x32.size a ≤ S1x16384x32.size a
  h_S1x16384x32 : 0 < S1x16384x32.numel
  shapeCasts_S1x16384x32_S16384x32 : S1x16384x32.ShapeCasts S16384x32
  bitsLt_bf16_f32 : FTy.bits .bf16 < FTy.bits .f32
  shapeCasts_S1x32x32_S1x32x32 : S1x32x32.ShapeCasts S1x32x32
  shapeCasts_S32x32_S1x32x32 : S32x32.ShapeCasts S1x32x32
  reducesTo_S4x32x32_S4x32_d2 : S4x32x32.ReducesTo [2] S4x32
  h_S_ : 0 < S_.numel
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S4x32x1_S4x32x32_0_1_2 : S4x32x1.BroadcastsInDim S4x32x32 (![0, 1, 2] : Fin 3 → Fin S4x32x32.rank)
  shapeCasts_S1x32x32_S32x32 : S1x32x32.ShapeCasts S32x32
  shapeCasts_S16384x32_S1x16384x32 : S16384x32.ShapeCasts S1x16384x32
  shapeCasts_S4x262144x32_S4x64x64x64x32 : S4x262144x32.ShapeCasts S4x64x64x64x32
  dot_S16384x32_S16384x32_S32x32_0_0_1_1_n_n_wf : DotDims.WF S16384x32 S16384x32 S32x32 [0] [0] [1] [1] [] []
  dot_S16384x32_S32x32_S16384x32_1_1_0_0_n_n_wf : DotDims.WF S16384x32 S32x32 S16384x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x32.size a ≤ S4x262144x32.size a
  hwx0_0 : ∀ i : grid0.Coords, EltTy.bits .f32 = 32 ∨ (Rect.block (s := S4x262144x32) S1x16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384x32.size a ≤ S4x262144x32.size a
  hwx0_1 : ∀ i : grid0.Coords, EltTy.bits .f32 = 32 ∨ (Rect.block (s := S4x262144x32) S1x16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32.size a ≤ S4x32x32.size a
  hwx0_2 : ∀ i : grid0.Coords, EltTy.bits .f32 = 32 ∨ (Rect.block (s := S4x32x32) S1x32x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16384x32.size a ≤ S4x262144x32.size a
  hwx1_0 : ∀ i : grid1.Coords, EltTy.bits .f32 = 32 ∨ (Rect.block (s := S4x262144x32) S1x16384x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32.size a ≤ S4x32x32.size a
  hwx1_1 : ∀ i : grid1.Coords, EltTy.bits .f32 = 32 ∨ (Rect.block (s := S4x32x32) S1x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384x32.size a ≤ S4x262144x32.size a
  hwx1_2 : ∀ i : grid1.Coords, EltTy.bits .f32 = 32 ∨ (Rect.block (s := S4x262144x32) S1x16384x32.size (cc1_transform_2 i) (hinb1_2 i)).WholeWords (EltTy.packing .f32)

variable [Facts₀]

def dot_S16384x32_S16384x32_S32x32_0_0_1_1_n_n : DotDims S16384x32 S16384x32 S32x32 where
  lhsContracting := [0]
  rhsContracting := [0]
  lhsNonContracting := [1]
  rhsNonContracting := [1]
  lhsBatch := []
  rhsBatch := []
  wf := dot_S16384x32_S16384x32_S32x32_0_0_1_1_n_n_wf
def dot_S16384x32_S32x32_S16384x32_1_1_0_0_n_n : DotDims S16384x32 S32x32 S16384x32 where
  lhsContracting := [1]
  rhsContracting := [1]
  lhsNonContracting := [0]
  rhsNonContracting := [0]
  lhsBatch := []
  rhsBatch := []
  wf := dot_S16384x32_S32x32_S16384x32_1_1_0_0_n_n_wf

abbrev win0_0 : Pipeline.Window sig grid0 :=
  Pipeline.Window.ofSpec (Memref.whole main_v0) S1x16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x16384x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x16384x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x64x64x32 : Shape := ⟨5, ![4, 64, 64, 64, 32]⟩
abbrev S4x262144x32 : Shape := ⟨3, ![4, 262144, 32]⟩
abbrev S4x32x32 : Shape := ⟨3, ![4, 32, 32]⟩
abbrev S_ : Shape := ⟨0, ![]⟩
abbrev S4x32 : Shape := ⟨2, ![4, 32]⟩
abbrev S4x32x1 : Shape := ⟨3, ![4, 32, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x64x64x64x32, .f32⟩
  | .hbm, ⟨1, _⟩ => ⟨S4x64x64x64x32, .f32⟩
  | .hbm, ⟨2, _⟩ => ⟨S4x262144x32, .f32⟩
  | .hbm, ⟨3, _⟩ => ⟨S4x262144x32, .f32⟩
  | .hbm, ⟨4, _⟩ => ⟨S4x32x32, .f32⟩
  | .hbm, ⟨5, _⟩ => ⟨S_, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32x1, .f32⟩
  | .hbm, ⟨11, _⟩ => ⟨S4x32x32, .f32⟩
  | .hbm, ⟨12, _⟩ => ⟨S4x32x32, .f32⟩
  | .hbm, ⟨13, _⟩ => ⟨S4x32x32, .f32⟩
  | .hbm, ⟨14, _⟩ => ⟨S_, .f32⟩
  | .hbm, ⟨15, _⟩ => ⟨S4x32, .f32⟩
  | .hbm, ⟨16, _⟩ => ⟨S4x32x1, .f32⟩
  | .hbm, ⟨17, _⟩ => ⟨S4x32x32, .f32⟩
  | .hbm, ⟨18, _⟩ => ⟨S4x32x32, .f32⟩
  | .hbm, ⟨19, _⟩ => ⟨S4x262144x32, .f32⟩
  | .hbm, ⟨20, _⟩ => ⟨S4x64x64x64x32, .f32⟩
  | .hbm, ⟨21, _⟩ => ⟨S4x64x64x64x32, .f32⟩
  | _, _ => ⟨S4x64x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S4x64x64x64x32_S4x262144x32 : S4x64x64x64x32.ShapeCasts S4x262144x32
  reducesTo_S4x32x32_S4x32_d2 : S4x32x32.ReducesTo [2] S4x32
  h_S_ : 0 < S_.numel
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S4x32x1_S4x32x32_0_1_2 : S4x32x1.BroadcastsInDim S4x32x32 (![0, 1, 2] : Fin 3 → Fin S4x32x32.rank)
  shapeCasts_S4x262144x32_S4x64x64x64x32 : S4x262144x32.ShapeCasts S4x64x64x64x32
  dot_S4x262144x32_S4x262144x32_S4x32x32_1_1_2_2_0_0_wf : DotDims.WF S4x262144x32 S4x262144x32 S4x32x32 [1] [1] [2] [2] [0] [0]
  dot_S4x262144x32_S4x32x32_S4x262144x32_2_2_1_1_0_0_wf : DotDims.WF S4x262144x32 S4x32x32 S4x262144x32 [2] [2] [1] [1] [0] [0]

variable [Facts₀]

def dot_S4x262144x32_S4x262144x32_S4x32x32_1_1_2_2_0_0 : DotDims S4x262144x32 S4x262144x32 S4x32x32 where
  lhsContracting := [1]
  rhsContracting := [1]
  lhsNonContracting := [2]
  rhsNonContracting := [2]
  lhsBatch := [0]
  rhsBatch := [0]
  wf := dot_S4x262144x32_S4x262144x32_S4x32x32_1_1_2_2_0_0_wf
def dot_S4x262144x32_S4x32x32_S4x262144x32_2_2_1_1_0_0 : DotDims S4x262144x32 S4x32x32 S4x262144x32 where
  lhsContracting := [2]
  rhsContracting := [2]
  lhsNonContracting := [1]
  rhsNonContracting := [1]
  lhsBatch := [0]
  rhsBatch := [0]
  wf := dot_S4x262144x32_S4x32x32_S4x262144x32_2_2_1_1_0_0_wf

class Facts : Prop extends Facts₀ where

variable [Facts]
-- ==== Proof.Spec.lean ====
/-
  The mathematics both programs compute, stated once over the extended reals and over literal shapes.

  With q, k : [4, 262144, 32] (the two inputs with their three spatial axes flattened into one axis n):
    corr q k [b, i, j]   = Σ_n q[b, n, i] · k[b, n, j]        (channel-by-channel correlation over all positions)
    gated q w [b, n, i]  = q[b, n, i] + Σ_j q[b, n, j] · w[b, i, j]   (the residual plus the re-mixed channels)
  and the whole result is the un-flattening of  gated q (σ (corr q k))  where σ is the row-wise
  softmax, carried as an unopened function: both programs apply literally the same chain of host
  operations for it, so nothing about σ is ever needed.
-/
import Idealize.ShloMosaic.PureOps.Ideal
import Idealize.ShloMosaic.Lib.ValueIdx
import Idealize.ShloMosaic.Lib.Pipeline.Value

noncomputable section

namespace Cert.Attn

open Idealize.ShloMosaic Idealize.ShloMosaic.ValueIdx

/-- The inputs' shape [B, D, H, W, C]. -/
abbrev SX : Shape := ⟨5, ![4, 64, 64, 64, 32]⟩
/-- The same with the three spatial axes flattened: [B, N, C], N = 64·64·64. -/
abbrev SQ : Shape := ⟨3, ![4, 262144, 32]⟩
/-- The per-batch channel-by-channel matrix [B, C, C]. -/
abbrev SW : Shape := ⟨3, ![4, 32, 32]⟩

/-- Σ_n q[b, n, i] · k[b, n, j]. -/
def corrAt (q k : SQ.Idx → EReal) (b : Fin 4) (i j : Fin 32) : EReal :=
  ∑ n : Fin 262144, q (ix3 b n i) * k (ix3 b n j)

/-- The correlation matrix of every batch entry. -/
def corr (q k : SQ.Idx → EReal) : SW.Idx → EReal := fun y => corrAt q k (y 0) (y 1) (y 2)

/-- Σ_j q[b, n, j] · w[b, i, j]. -/
def mixAt (q : SQ.Idx → EReal) (w : SW.Idx → EReal) (b : Fin 4) (n : Fin 262144) (i : Fin 32) : EReal :=
  ∑ j : Fin 32, q (ix3 b n j) * w (ix3 b i j)

/-- The residual output: q plus its channels re-mixed by w. -/
def gated (q : SQ.Idx → EReal) (w : SW.Idx → EReal) : SQ.Idx → EReal := fun y => q y + mixAt q w (y 0) (y 1) (y 2)

/-- The whole result as one function of the two inputs, for any map `sm` of [B, C, C] matrices in the softmax's place. -/
def result (h53 : SX.ShapeCasts SQ) (h35 : SQ.ShapeCasts SX) (sm : (SW.Idx → EReal) → (SW.Idx → EReal))
    (x0 x1 : SX.Idx → EReal) : SX.Idx → EReal :=
  shapeCast SX (gated (shapeCast SQ x0 h53) (sm (corr (shapeCast SQ x0 h53) (shapeCast SQ x1 h53)))) h35

end Cert.Attn

end
-- ==== Proof.Softmax.lean ====
/-
  The row-wise softmax of a [4, 32, 32] array exactly as both programs spell it on the host:
  exp (x − max_j x) / Σ_j exp (x − max_j x), the row maximum taken from −∞ and joined once more with −∞,
  the row sum taken from 0. It is named here so that it can be carried as ONE unopened function: both programs
  apply this very chain, to arrays that are shown equal, and nothing else about it is used.
-/
import proofs.«173665_j55095840473688_1_alg».proof.Proof.Spec
import Idealize.ShloMosaic.PureOps.Ideal

noncomputable section

namespace Cert.Attn

open Idealize.ShloMosaic

/-- The row statistics' shapes: [4, 32], the same with a unit axis, and the scalar. -/
abbrev SR : Shape := ⟨2, ![4, 32]⟩
abbrev SR1 : Shape := ⟨3, ![4, 32, 1]⟩
abbrev S0 : Shape := ⟨0, ![]⟩

theorem hReduce : SW.ReducesTo [2] SR := by decide
theorem hScalar : 0 < S0.numel := by decide
theorem hB0 : S0.BroadcastsInDim SR (![] : Fin 0 → Fin SR.rank) := by decide
theorem hB1 : SR.BroadcastsInDim SR1 (![0, 1] : Fin 2 → Fin SR1.rank) := by decide
theorem hB2 : SR1.BroadcastsInDim SW (![0, 1, 2] : Fin 3 → Fin SW.rank) := by decide
theorem h53 : SX.ShapeCasts SQ := by decide
theorem h35 : SQ.ShapeCasts SX := by decide

/-- exp (x − the row maximum), the numerator of the softmax. -/
def expShifted (x : FVec Ideal SW .f32) : FVec Ideal SW .f32 :=
  Host.exp (subf x (broadcastInDim SW ![0, 1, 2] hB2 (broadcastInDim SR1 ![0, 1] hB1
    (maximumf (broadcastInDim SR ![] hB0 (constant S0 .f32 0xFF800000#32))
      (Host.reduce FloatOps.maximumf x (constant S0 .f32 0xFF800000#32) hReduce hScalar)))))

/-- The row-wise softmax over the last axis. -/
def rowSoftmax (x : FVec Ideal SW .f32) : FVec Ideal SW .f32 :=
  Host.divf (expShifted x) (broadcastInDim SW ![0, 1, 2] hB2 (broadcastInDim SR1 ![0, 1] hB1
    (Host.reduceAdd (expShifted x) (constant S0 .f32 0x00000000#32) hReduce hScalar)))

/-- What both programs are shown to compute. -/
abbrev attention (x0 x1 : SX.Idx → EReal) : SX.Idx → EReal := result h53 h35 rowSoftmax x0 x1

end Cert.Attn

end
-- ==== Proof.Boundaries.lean ====
/-
  The host stretches of the kernel's @main between its two pallas_calls, read at the extended reals: the two
  inputs flattened to [4, 262144, 32] before the first call; the row-wise softmax of the first call's result
  before the second (the flattened first input untouched by either); the second call's result un-flattened at the end.
-/
import proofs.«173665_j55095840473688_1_alg».proof.Proof.Gen.KernelIdeal.Frame
import proofs.«173665_j55095840473688_1_alg».proof.Proof.Softmax
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Boundaries

open Cert.KernelIdeal Cert.KernelIdeal.Gen

variable (m : (ℓ : Loc nD τ sig) → Buf (Elt Ideal) ℓ) (ρ : Dev nD → PrngReg)

/-- Entering the first call, its first operand is the first input flattened. -/
theorem W1_v0 (c : Dev nD) :
    W1 m ρ c (Proc.devRef .tc main_v0)
      = shapeCast Cert.Attn.SQ (m ((c : Thread nD τ).loc main_arg0)) Cert.Attn.h53 := by
  show StableHlo.after hostOps0 (W0 m ρ c) (Proc.devRef .tc main_v0) = _
  after_results
  rfl

/-- Entering the first call, its second operand is the second input flattened. -/
theorem W1_v1 (c : Dev nD) :
    W1 m ρ c (Proc.devRef .tc main_v1)
      = shapeCast Cert.Attn.SQ (m ((c : Thread nD τ).loc main_arg1)) Cert.Attn.h53 := by
  show StableHlo.after hostOps0 (W0 m ρ c) (Proc.devRef .tc main_v1) = _
  after_results
  rfl

/-- The first call only reads the flattened first input: it leaves the call as it entered. -/
theorem W2_v0 (c : Dev nD) : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-- The softmax stretch does not write it either. -/
theorem W3_v0 (c : Dev nD) : W3 m ρ c (Proc.devRef .tc main_v0) = W2 m ρ c (Proc.devRef .tc main_v0) := by
  show StableHlo.after hostOps1 (W2 m ρ c) (Proc.devRef .tc main_v0) = _
  after_results

/-- Entering the second call, its second operand is the row-wise softmax of the first call's result. -/
theorem W3_v13 (c : Dev nD) :
    W3 m ρ c (Proc.devRef .tc main_v13) = Cert.Attn.rowSoftmax (W2 m ρ c (Proc.devRef .tc main_v2)) := by
  show StableHlo.after hostOps1 (W2 m ρ c) (Proc.devRef .tc main_v13) = _
  after_results
  rfl

/-- The result is the second call's output un-flattened. -/
theorem W5_v15 (c : Dev nD) :
    W5 m ρ c (Proc.devRef .tc main_v15)
      = shapeCast Cert.Attn.SX (W4 m ρ c (Proc.devRef .tc main_v14)) Cert.Attn.h35 := by
  show StableHlo.after hostOps2 (W4 m ρ c) (Proc.devRef .tc main_v15) = _
  after_results
  rfl

end Cert.KernelIdeal.Boundaries

end
-- ==== Proof.Region0.lean ====
/-
  The first pallas_call: over the grid (b, t) it accumulates, in its [1, 32, 32] output block, the products of
  the t-th 16384-row blocks of q[b] and k[b] contracted over the rows; the block is zeroed at t = 0 and written
  back after t = 15. So after the call the [4, 32, 32] array holds the correlation matrix of every batch entry.

  The steps: what one grid point leaves in the output block (the update of the zero block at t = 0, of the block
  the point before left otherwise); the update at an entry, acc[p, q] + Σ_r x[r, p] · y[r, q] over the block's
  16384 rows; the blocks read as slices of the two arrays; the block after t = 15 as the sum of the sixteen
  points' addends; sixteen blocks of 16384 rows re-indexed as the 262144 rows; and the four written-back blocks
  as the four rows of the result array.
-/
import proofs.«173665_j55095840473688_1_alg».proof.Proof.Gen.KernelIdeal.Frame
import proofs.«173665_j55095840473688_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen
open Idealize.ShloMosaic.ValueIdx

variable (V : (c : Dev nD) → (b : Ref sig .tc) → Buf (Elt Ideal) ((c : Thread nD τ).loc b))

/-- The correlation matrix of the region's two input arrays as it finds them. -/
abbrev corrBuf (c : Dev nD) : Buf (Elt Ideal) ((c : Thread nD τ).loc main_v2) :=
  Cert.Attn.corr (V c main_v0) (V c main_v1)

/-! ## What one grid point leaves in the output block

The body's stores into the [1, 32, 32] block, read back: at the first point of a row of the grid the block is
zeroed and the product of the two input blocks added to that zero; at every other point the product is added to
what the point before left. -/

section Pieces
variable {F : FTy → Type} [FloatOps F]

/-- The zero offsets of a whole-block access, as the constant function. -/
theorem hz : (![0, 0, 0] : Fin 3 → Nat) = fun _ => 0 := funext fun a => by fin_cases a <;> rfl

/-- A point that does not reset: the block holding `xo2` ends holding the update of `xo2` by the two input blocks. -/
theorem out_B (c : Dev nD) (i : grid0.Coords) (a2 : Memref sig .tc .vmem S1x16384x32 .f32) (h2 : a2.IsWhole)
    (a3 : Memref sig .tc .vmem S1x16384x32 .f32) (h3 : a3.IsWhole) (a4 : Memref sig .tc .vmem S1x32x32 .f32) (h4 : a4.IsWhole)
    (hc : ¬cond0_0 i) (x0 x1 : Vec F S1x16384x32 .f32) (xo2 : Vec F S1x32x32 .f32) :
    out0_B_2 c i a2 h2 a3 h3 a4 h4 hc x0 x1 xo2 = k0_pay2 x0 x1 xo2 := by
  unfold out0_B_2
  rw [View.read_writes_eq_canon _ _ _ (cover0_B_2 c i a2 h2 a3 h3 a4 h4 hc x0 x1 xo2)]
  unfold kernelRun0_B
  dsimp only
  sl_unfold_words
  rw [View.canon_unit_zero hz]
  simp only [View.readAt_eq_ld, h2.read_unread, h3.read_unread, h4.read_unread,
    View.ld_unit_zero (S := S1x16384x32) hz, View.ld_unit_zero (S := S1x32x32) hz]

/-- A point that resets: the block ends holding the update of the zero block by the two input blocks (the zero
    block is stored first and read back by the update). -/
theorem out_A (c : Dev nD) (i : grid0.Coords) (a2 : Memref sig .tc .vmem S1x16384x32 .f32) (h2 : a2.IsWhole)
    (a3 : Memref sig .tc .vmem S1x16384x32 .f32) (h3 : a3.IsWhole) (a4 : Memref sig .tc .vmem S1x32x32 .f32) (h4 : a4.IsWhole)
    (hc : cond0_0 i) (x0 x1 : Vec F S1x16384x32 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x32x32) hz, View.readCov_unit_zero (S := S1x32x32) _ hz]
  simp only [View.readAt_eq_ld, h2.read_unread, h3.read_unread,
    View.ld_unit_zero (S := S1x16384x32) hz]

end Pieces

/-! ## The update at an entry, over the extended reals

Entry (p, q) of the updated block is the old entry plus the sum over the 16384 rows r of the two input blocks'
entries (r, p) and (r, q): the product contracts the row axis of both blocks. -/

section Payload

/-- The left operand of the product is read at row = the contraction position, -/
theorem lhs_axis0 (j : S32x32.Idx) (k : Cert.KernelIdeal.dot_S16384x32_S16384x32_S32x32_0_0_1_1_n_n.contr.Idx) :
    (Cert.KernelIdeal.dot_S16384x32_S16384x32_S32x32_0_0_1_1_n_n.lhsIdx j k 0).val = (k ⟨0, by decide⟩).val :=
  Cert.KernelIdeal.dot_S16384x32_S16384x32_S32x32_0_0_1_1_n_n.lhsIdx_val_of_single rfl j k
/-- and column = the result's row; -/
theorem lhs_axis1 (j : S32x32.Idx) (k : Cert.KernelIdeal.dot_S16384x32_S16384x32_S32x32_0_0_1_1_n_n.contr.Idx) :
    (Cert.KernelIdeal.dot_S16384x32_S16384x32_S32x32_0_0_1_1_n_n.lhsIdx j k 1).val = (j 0).val := by
  unfold DotDims.lhsIdx
  rw [dif_neg (show ¬(1 : Fin S16384x32.rank) ∈ Cert.KernelIdeal.dot_S16384x32_S16384x32_S32x32_0_0_1_1_n_n.lhsBatch by decide), dif_pos (show (1 : Fin S16384x32.rank) ∈ Cert.KernelIdeal.dot_S16384x32_S16384x32_S32x32_0_0_1_1_n_n.lhsNonContracting by decide)]
  rfl
/-- the right operand at row = the contraction position, -/
theorem rhs_axis0 (j : S32x32.Idx) (k : Cert.KernelIdeal.dot_S16384x32_S16384x32_S32x32_0_0_1_1_n_n.contr.Idx) :
    (Cert.KernelIdeal.dot_S16384x32_S16384x32_S32x32_0_0_1_1_n_n.rhsIdx j k 0).val = (k ⟨0, by decide⟩).val :=
  Cert.KernelIdeal.dot_S16384x32_S16384x32_S32x32_0_0_1_1_n_n.rhsIdx_val_of_single rfl j k
/-- and column = the result's column. -/
theorem rhs_axis1 (j : S32x32.Idx) (k : Cert.KernelIdeal.dot_S16384x32_S16384x32_S32x32_0_0_1_1_n_n.contr.Idx) :
    (Cert.KernelIdeal.dot_S16384x32_S16384x32_S32x32_0_0_1_1_n_n.rhsIdx j k 1).val = (j 1).val := by
  unfold DotDims.rhsIdx
  rw [dif_neg (show ¬(1 : Fin S16384x32.rank) ∈ Cert.KernelIdeal.dot_S16384x32_S16384x32_S32x32_0_0_1_1_n_n.rhsBatch by decide), dif_pos (show (1 : Fin S16384x32.rank) ∈ Cert.KernelIdeal.dot_S16384x32_S16384x32_S32x32_0_0_1_1_n_n.rhsNonContracting by decide)]
  rfl

/-- The product into the zero block, at (p, q): Σ_r A[r, p] · B[r, q]. -/
theorem prod_apply (A B : FVec Ideal S16384x32 .bf16) (p q : Fin 32) :
    matmul Cert.KernelIdeal.dot_S16384x32_S16384x32_S32x32_0_0_1_1_n_n none A B (constant (F := Ideal) S32x32 .f32 0x00000000#32) (ix2 p q)
      = ∑ r : Fin 16384, A (ix2 r p) * B (ix2 r q) := by
  simp only [matmul]
  rw [Ideal.matmul_constant_zero_apply, ← Equiv.sum_comp (ValueIdx.contrEquiv1 Cert.KernelIdeal.dot_S16384x32_S16384x32_S32x32_0_0_1_1_n_n 16384 rfl rfl).symm]
  refine Finset.sum_congr rfl fun r _ => ?_
  have hk := ValueIdx.contrEquiv1_symm_val Cert.KernelIdeal.dot_S16384x32_S16384x32_S32x32_0_0_1_1_n_n 16384 rfl rfl r
  have el : Cert.KernelIdeal.dot_S16384x32_S16384x32_S32x32_0_0_1_1_n_n.lhsIdx (ix2 p q) ((ValueIdx.contrEquiv1 Cert.KernelIdeal.dot_S16384x32_S16384x32_S32x32_0_0_1_1_n_n 16384 rfl rfl).symm r) = ix2 r p := funext fun a => Fin.ext (by
    match a with
    | ⟨0, _⟩ => exact (lhs_axis0 _ _).trans hk
    | ⟨1, _⟩ => exact lhs_axis1 _ _)
  have er : Cert.KernelIdeal.dot_S16384x32_S16384x32_S32x32_0_0_1_1_n_n.rhsIdx (ix2 p q) ((ValueIdx.contrEquiv1 Cert.KernelIdeal.dot_S16384x32_S16384x32_S32x32_0_0_1_1_n_n 16384 rfl rfl).symm r) = ix2 r q := funext fun a => Fin.ext (by
    match a with
    | ⟨0, _⟩ => exact (rhs_axis0 _ _).trans hk
    | ⟨1, _⟩ => exact rhs_axis1 _ _)
  rw [el, er]

/-- A [1, 16384, 32] block viewed as [16384, 32]: entry (r, p) is entry (0, r, p). -/
theorem drop_apply (x : Vec Ideal S1x16384x32 .f32) (h : S1x16384x32.ShapeCasts S16384x32) (r : Fin 16384) (p : Fin 32) :
    shapeCast S16384x32 x h (ix2 r p) = x (ix3 0 r p) := by
  refine shapeCast_apply x h (ix2 r p) (ix3 0 r p) ?_
  rw [Shape.rowMajor_val_three, Shape.rowMajor_val_two]
  show ((0 : Fin 1).val * 16384 + r.val) * 32 + p.val = r.val * 32 + p.val
  simp

/-- A [32, 32] result stored as a [1, 32, 32] block: entry (0, p, q) is entry (p, q). -/
theorem add_apply (y : S32x32.Idx → EReal) (h : S32x32.ShapeCasts S1x32x32) (p q : Fin 32) :
    shapeCast S1x32x32 y h (ix3 0 p q) = y (ix2 p q) := by
  refine shapeCast_apply y h (ix3 0 p q) (ix2 p q) ?_
  rw [Shape.rowMajor_val_three, Shape.rowMajor_val_two]
  show p.val * 32 + q.val = ((0 : Fin 1).val * 32 + p.val) * 32 + q.val
  simp

/-- The update of the block `acc` by the input blocks `x0`, `x1`, at entry (p, q). -/
theorem update_apply (x0 x1 : Vec Ideal S1x16384x32 .f32) (acc : Vec Ideal S1x32x32 .f32) (p q : Fin 32) :
    k0_pay2 (F := Ideal) x0 x1 acc (ix3 0 p q)
      = acc (ix3 0 p q) + ∑ r : Fin 16384, x0 (ix3 0 r p) * x1 (ix3 0 r q) := by
  unfold k0_pay2
  rw [addf_apply, shapeCast_self, add_apply, prod_apply]
  refine congrArg (acc (ix3 0 p q) + ·) (Finset.sum_congr rfl fun r _ => ?_)
  rw [truncf_apply, truncf_apply, drop_apply, drop_apply]

/-- The zero block's entries are the extended real 0. -/
theorem zero_apply (j : S1x32x32.Idx) : k0_pay1 (F := Ideal) j = 0 := by
  unfold k0_pay1
  rw [broadcast_apply]
  exact Ideal.ofBits_zero_f32

end Payload

/-! ## The blocks the grid points read

Point t = 16·b + s reads rows s·16384 … s·16384 + 16383 of batch entry b of both inputs, and its output block is
row b of the [4, 32, 32] array. -/

/-- The three windows' block indices at every grid point. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The two input blocks at point n, at their literal type. -/
abbrev qblk (c : Dev nD) (n : ℕ) (h : n < cfg0.N) : Vec Ideal S1x16384x32 .f32 := iblk0 V c 0 ⟨n, h⟩
abbrev kblk (c : Dev nD) (n : ℕ) (h : n < cfg0.N) : Vec Ideal S1x16384x32 .f32 := iblk0 V c 1 ⟨n, h⟩

/-- The first input's block at point t, entry (0, r, p): the array's entry (t / 16, (t % 16)·16384 + r, p). -/
theorem qblk_apply (c : Dev nD) (t : ℕ) (ht : t < cfg0.N) (r : Fin 16384) (p : Fin 32) (b : Fin 4) (n : Fin 262144)
    (hb : b.val = t / 16) (hn : n.val = t % 16 * 16384 + r.val) :
    qblk V c t ht (ix3 0 r p) = (V c main_v0 : Cert.Attn.SQ.Idx → EReal) (ix3 b n p) := by
  obtain ⟨e0, e1, e2, -⟩ := idx_facts ⟨t, ht⟩
  unfold qblk iblk0
  rw [View.read_apply]
  show (V c main_v0 : Cert.Attn.SQ.Idx → EReal) _ = V c main_v0 (ix3 b n p)
  refine congrArg (V c main_v0 : Cert.Attn.SQ.Idx → EReal) (funext fun a => Fin.ext ?_)
  match a with
  | ⟨0, _⟩ => show win0_0.index ⟨t, ht⟩ (0 : Fin 3) * 1 + 1 * (0 : Fin 1).val = b.val; rw [e0, hb]; simp
  | ⟨1, _⟩ => show win0_0.index ⟨t, ht⟩ (1 : Fin 3) * 16384 + 1 * r.val = n.val; rw [e1, hn]; show t % 16 * 16384 + 1 * r.val = _; omega
  | ⟨2, _⟩ => show win0_0.index ⟨t, ht⟩ (2 : Fin 3) * 32 + 1 * p.val = p.val; rw [e2]; omega

/-- The second input's block at point t, likewise. -/
theorem kblk_apply (c : Dev nD) (t : ℕ) (ht : t < cfg0.N) (r : Fin 16384) (p : Fin 32) (b : Fin 4) (n : Fin 262144)
    (hb : b.val = t / 16) (hn : n.val = t % 16 * 16384 + r.val) :
    kblk V c t ht (ix3 0 r p) = (V c main_v1 : Cert.Attn.SQ.Idx → EReal) (ix3 b n p) := by
  obtain ⟨-, -, -, e0, e1, e2, -⟩ := idx_facts ⟨t, ht⟩
  unfold kblk iblk0
  rw [View.read_apply]
  show (V c main_v1 : Cert.Attn.SQ.Idx → EReal) _ = V c main_v1 (ix3 b n p)
  refine congrArg (V c main_v1 : Cert.Attn.SQ.Idx → EReal) (funext fun a => Fin.ext ?_)
  match a with
  | ⟨0, _⟩ => show win0_1.index ⟨t, ht⟩ (0 : Fin 3) * 1 + 1 * (0 : Fin 1).val = b.val; rw [e0, hb]; simp
  | ⟨1, _⟩ => show win0_1.index ⟨t, ht⟩ (1 : Fin 3) * 16384 + 1 * r.val = n.val; rw [e1, hn]; show t % 16 * 16384 + 1 * r.val = _; omega
  | ⟨2, _⟩ => show win0_1.index ⟨t, ht⟩ (2 : Fin 3) * 32 + 1 * p.val = p.val; rw [e2]; omega

/-! ## The running contents of the output block: a fold along each row of the grid -/

/-- At the first point of a row the block is the update of the zero block. -/
theorem outs_reset (c : Dev nD) (n : ℕ) (h : n < cfg0.N) (h0 : n % 16 = 0) :
    outsAt0 V c n h = k0_pay2 (F := Ideal) (qblk V c n h) (kblk V c n h) (k0_pay1 (F := Ideal)) :=
  (outsAt0_A V c ⟨n, h⟩ h0).trans
    (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk0 V c 0 ⟨n, h⟩) (iblk0 V c 1 ⟨n, h⟩))

/-- At every other point it is the update of what the point before left. -/
theorem outs_step (c : Dev nD) (n : ℕ) (h : n + 1 < cfg0.N) (hB : ¬(n + 1) % 16 = 0) :
    outsAt0 V c (n + 1) h
      = k0_pay2 (F := Ideal) (qblk V c (n + 1) h) (kblk V c (n + 1) h) (outsAt0 V c n (Nat.lt_of_succ_lt h)) :=
  (outsAt0_B V c ⟨n + 1, h⟩ hB).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh))
      (iblk0 V c 0 ⟨n + 1, h⟩) (iblk0 V c 1 ⟨n + 1, h⟩) (outsAt0 V c n (Nat.lt_of_succ_lt h)))

/-- What point n adds to entry i of the block: Σ_r q-block[r, i₁] · k-block[r, i₂] (nothing past the grid). -/
def addend (c : Dev nD) (n : ℕ) (i : S1x32x32.Idx) : EReal :=
  if h : n < cfg0.N then
    ∑ r : Fin 16384, qblk V c n h (ix3 0 r ⟨(i 1).val, (i 1).isLt⟩) * kblk V c n h (ix3 0 r ⟨(i 2).val, (i 2).isLt⟩)
  else 0

/-- The update at any entry of the block. -/
theorem update_apply' (x0 x1 : Vec Ideal S1x16384x32 .f32) (acc : Vec Ideal S1x32x32 .f32) (i : S1x32x32.Idx) :
    k0_pay2 (F := Ideal) x0 x1 acc i
      = acc i + ∑ r : Fin 16384, x0 (ix3 0 r ⟨(i 1).val, (i 1).isLt⟩) * x1 (ix3 0 r ⟨(i 2).val, (i 2).isLt⟩) := by
  obtain ⟨a, p, q, rfl⟩ : ∃ (a : Fin 1) (p : Fin 32) (q : Fin 32), i = ix3 a p q := ⟨i 0, i 1, i 2, eq_ix3 i⟩
  obtain rfl : a = 0 := Subsingleton.elim _ _
  exact update_apply x0 x1 acc p q

/-- After the point 16·b + 15 the block holds the sum of the sixteen points' addends. -/
theorem outs_last (c : Dev nD) (b : ℕ) (h : 16 * b + 15 < cfg0.N) (i : S1x32x32.Idx) :
    outsAt0 V c (16 * b + 15) h i = ∑ s ∈ Finset.range 16, addend V c (16 * b + s) i := by
  rw [Pipeline.eq_accAt (outsAt0 V c) 16
    (fun n h => k0_pay2 (F := Ideal) (qblk V c n h) (kblk V c n h) (k0_pay1 (F := Ideal)))
    (fun n h acc => k0_pay2 (F := Ideal) (qblk V c n h) (kblk V c n h) acc)
    (fun n h h0 => outs_reset V c n h h0) (fun n h hB => outs_step V c n h hB) b 15 (by decide) h]
  rw [Pipeline.accAt_add_apply _ _ (fun _ => (0 : EReal)) (addend V c) (16 * b) 15
    (fun hb i => by
      show k0_pay2 (F := Ideal) (qblk V c (16 * b) hb) (kblk V c (16 * b) hb) (k0_pay1 (F := Ideal)) i = 0 + addend V c (16 * b) i
      rw [update_apply', zero_apply]; unfold addend; rw [dif_pos hb])
    (fun n hn acc i _ _ => by
      show k0_pay2 (F := Ideal) (qblk V c n hn) (kblk V c n hn) acc i = acc i + addend V c n i
      rw [update_apply']; unfold addend; rw [dif_pos hn])
    15 (le_refl _) h i, zero_add]

/-! ## Sixteen blocks of 16384 rows are the 262144 rows -/

/-- Row n = s·16384 + r of the array is row r of block s. -/
def rowSplit : Fin 16 × Fin 16384 ≃ Fin 262144 :=
  (finProdFinEquiv (m := 16) (n := 16384)).trans (finCongr (by norm_num))

theorem rowSplit_val (s : Fin 16) (r : Fin 16384) : (rowSplit (s, r)).val = s.val * 16384 + r.val := by
  show r.val + 16384 * s.val = _
  omega

/-- The correlation's sum over all rows, block by block. -/
theorem corr_split (Q K : Cert.Attn.SQ.Idx → EReal) (b : Fin 4) (p q : Fin 32) :
    Cert.Attn.corrAt Q K b p q
      = ∑ s : Fin 16, ∑ r : Fin 16384, Q (ix3 b (rowSplit (s, r)) p) * K (ix3 b (rowSplit (s, r)) q) := by
  unfold Cert.Attn.corrAt
  rw [← Equiv.sum_comp rowSplit, Fintype.sum_prod_type]

/-- So after the last point of row b of the grid the block's entry (p, q) is the correlation of batch entry b. -/
theorem outs_last_apply (c : Dev nD) (b : Fin 4) (h : 16 * b.val + 15 < cfg0.N) (p q : Fin 32) :
    outsAt0 V c (16 * b.val + 15) h (ix3 0 p q) = Cert.Attn.corrAt (V c main_v0) (V c main_v1) b p q := by
  have hN : cfg0.N = 64 := N_0
  have hb : b.val < 4 := b.isLt
  rw [outs_last, corr_split, ← Fin.sum_univ_eq_sum_range (fun s => addend V c (16 * b.val + s) (ix3 0 p q)) 16]
  refine Finset.sum_congr rfl fun s _ => ?_
  have hs : s.val < 16 := s.isLt
  have hlt : 16 * b.val + s.val < cfg0.N := by rw [hN]; omega
  unfold addend
  rw [dif_pos hlt]
  refine Finset.sum_congr rfl fun r _ => ?_
  have hr : r.val < 16384 := r.isLt
  show qblk V c (16 * b.val + s.val) hlt (ix3 0 r p) * kblk V c (16 * b.val + s.val) hlt (ix3 0 r q) = _
  rw [qblk_apply V c (16 * b.val + s.val) hlt r p b (rowSplit (s, r)) (by omega) (by rw [rowSplit_val]; omega),
    kblk_apply V c (16 * b.val + s.val) hlt r q b (rowSplit (s, r)) (by omega) (by rw [rowSplit_val]; omega)]

/-! ## The array after the region -/

/-- The correlation matrix at (b, p, q) is the correlation sum of batch entry b. -/
theorem corr_ix3 (Q K : Cert.Attn.SQ.Idx → EReal) (b : Fin 4) (p q : Fin 32) :
    Cert.Attn.corr Q K (ix3 b p q) = Cert.Attn.corrAt Q K b p q := rfl

/-- A block whose entry (0, p, q) is entry (t / 16, p, q) of an array G is the block point t's window reads of G. -/
theorem cut_eq_read (t : Fin cfg0.N) (hb : t.val / 16 < 4) (G : Cert.Attn.SW.Idx → EReal) (O : Vec Ideal S1x32x32 .f32)
    (hO : ∀ p q : Fin 32, O (ix3 0 p q) = G (ix3 ⟨t.val / 16, hb⟩ p q)) :
    (cfg0.win 2).cut (grid0.coords t) O = ((cfg0.win 2).blk t).view.read (Elt Ideal) G := by
  obtain ⟨-, -, -, -, -, -, e0, e1, e2⟩ := idx_facts t
  funext y
  obtain ⟨a, p, q, rfl⟩ : ∃ (a : Fin 1) (p : Fin 32) (q : Fin 32), y = ix3 a p q := ⟨y 0, y 1, y 2, eq_ix3 y⟩
  obtain rfl : a = 0 := Subsingleton.elim _ _
  have hemb : (((cfg0.win 2).blk t).view.emb (ix3 0 p q) : Cert.Attn.SW.Idx) = ix3 ⟨t.val / 16, hb⟩ p q := by
    funext a; apply Fin.ext
    match a with
    | ⟨0, _⟩ => show win0_2.index t (0 : Fin 3) * 1 + 1 * (0 : Fin 1).val = t.val / 16; rw [e0]; simp
    | ⟨1, _⟩ => show win0_2.index t (1 : Fin 3) * 32 + 1 * p.val = p.val; rw [e1]; omega
    | ⟨2, _⟩ => show win0_2.index t (2 : Fin 3) * 32 + 1 * q.val = q.val; rw [e2]; omega
  rw [View.read_apply]
  show O (ix3 0 p q) = G (((cfg0.win 2).blk t).view.emb (ix3 0 p q))
  rw [hemb]
  exact hO p q

/-- The block written back after the last point of a row of the grid is that row of the correlation matrix. -/
theorem flushed_eq (c : Dev nD) (t : Fin cfg0.N) (hf : (cfg0.win 2).flush t = true) :
    (dat0 V c).flushed 2 t = ((cfg0.win 2).blk t).view.read (Elt Ideal) (corrBuf V c) := by
  have hN : cfg0.N = 64 := N_0
  have ht : t.val < 64 := lt_of_lt_of_eq t.isLt hN
  have h15 : t.val % 16 = 15 := (flush0_2 t).mp hf
  have hb : t.val / 16 < 4 := by omega
  have same : ∀ (u : ℕ) (hu : u < cfg0.N), u = t.val → outsAt0 V c t.val t.isLt = outsAt0 V c u hu :=
    fun u hu e => by subst e; rfl
  show (cfg0.win 2).cut (grid0.coords t) ((dat0 V c).after 2 t) = _
  rw [after0_2]
  refine cut_eq_read t hb (Cert.Attn.corr (V c main_v0) (V c main_v1)) (outsAt0 V c t.val t.isLt) fun p q => ?_
  rw [same (16 * (t.val / 16) + 15) (lt_of_lt_of_eq (b := 64) (by omega) hN.symm) (by omega), corr_ix3]
  exact outs_last_apply V c ⟨t.val / 16, hb⟩ _ p q

/-- Row b of the output array is the block of point 16·b + 15, which writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have hi0 : (i 0).val < 4 := (i 0).isLt
  have hi1 : (i 1).val < 32 := (i 1).isLt
  have hi2 : (i 2).val < 32 := (i 2).isLt
  obtain ⟨t, htv⟩ : ∃ t : Fin cfg0.N, t.val = 16 * (i 0).val + 15 := ⟨⟨16 * (i 0).val + 15, lt_of_lt_of_eq (b := 64) (by omega) hN.symm⟩, rfl⟩
  obtain ⟨-, -, -, -, -, -, e0, e1, e2⟩ := idx_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 32 ≤ (i 1).val ∧ (i 1).val < win0_2.index t (1 : Fin 3) * 32 + 32
    rw [e1]; omega
  | ⟨2, _⟩ =>
    show win0_2.index t (2 : Fin 3) * 32 ≤ (i 2).val ∧ (i 2).val < win0_2.index t (2 : Fin 3) * 32 + 32
    rw [e2]; omega

/-- After the region its output array holds the correlation matrix. -/
theorem arr_eq (c : Dev nD) : (dat0 V c).arrAt 2 cfg0.N = corrBuf V c :=
  (dat0 V c).arrAt_eq_of_cover 2 (corrBuf V c) (flushed_eq V c) (covered c)

end Cert.KernelIdeal.Region0

end
-- ==== Proof.Region1.lean ====
/-
  The second pallas_call: at grid point (b, t) it reads the t-th 16384-row block x of q[b] and the whole
  [32, 32] matrix w[b], and writes x + x·wᵀ (contracting the channel axis of both) to the same block of its output.
  Since the output's blocks tile the [4, 262144, 32] array and every point writes its block back, the array ends
  holding q + q·wᵀ batch entry by batch entry: the residual output of the specification.
-/
import proofs.«173665_j55095840473688_1_alg».proof.Proof.Gen.KernelIdeal.Frame
import proofs.«173665_j55095840473688_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen
open Idealize.ShloMosaic.ValueIdx

/-! ## The block product at an index

The body's matrix product contracts axis 1 of the [16384, 32] block with axis 1 of the [32, 32] matrix: its
entry (r, p) is the sum over k of x[r, k] · w[p, k]. -/

/-- The left operand's row is the result's row. -/
theorem lhs_row (i : S16384x32.Idx) (q : dot_S16384x32_S32x32_S16384x32_1_1_0_0_n_n.contr.Idx) :
    (dot_S16384x32_S32x32_S16384x32_1_1_0_0_n_n.lhsIdx i q 0).val = (i 0).val := by
  unfold DotDims.lhsIdx
  rw [dif_neg (show ¬(0 : Fin S16384x32.rank) ∈ dot_S16384x32_S32x32_S16384x32_1_1_0_0_n_n.lhsBatch by decide), dif_pos (show (0 : Fin S16384x32.rank) ∈ dot_S16384x32_S32x32_S16384x32_1_1_0_0_n_n.lhsNonContracting by decide)]
  rfl
/-- The left operand's column is the contraction position. -/
theorem lhs_col (i : S16384x32.Idx) (q : dot_S16384x32_S32x32_S16384x32_1_1_0_0_n_n.contr.Idx) :
    (dot_S16384x32_S32x32_S16384x32_1_1_0_0_n_n.lhsIdx i q 1).val = (q ⟨0, by decide⟩).val :=
  dot_S16384x32_S32x32_S16384x32_1_1_0_0_n_n.lhsIdx_val_of_single rfl i q
/-- The right operand's row is the result's column. -/
theorem rhs_row (i : S16384x32.Idx) (q : dot_S16384x32_S32x32_S16384x32_1_1_0_0_n_n.contr.Idx) :
    (dot_S16384x32_S32x32_S16384x32_1_1_0_0_n_n.rhsIdx i q 0).val = (i 1).val := by
  unfold DotDims.rhsIdx
  rw [dif_neg (show ¬(0 : Fin S32x32.rank) ∈ dot_S16384x32_S32x32_S16384x32_1_1_0_0_n_n.rhsBatch by decide), dif_pos (show (0 : Fin S32x32.rank) ∈ dot_S16384x32_S32x32_S16384x32_1_1_0_0_n_n.rhsNonContracting by decide)]
  rfl
/-- The right operand's column is the contraction position. -/
theorem rhs_col (i : S16384x32.Idx) (q : dot_S16384x32_S32x32_S16384x32_1_1_0_0_n_n.contr.Idx) :
    (dot_S16384x32_S32x32_S16384x32_1_1_0_0_n_n.rhsIdx i q 1).val = (q ⟨0, by decide⟩).val :=
  dot_S16384x32_S32x32_S16384x32_1_1_0_0_n_n.rhsIdx_val_of_single rfl i q

/-- The product into the zero accumulator, entry by entry. -/
theorem matmul_at (a : FVec Ideal S16384x32 .bf16) (b : FVec Ideal S32x32 .bf16) (r : Fin 16384) (p : Fin 32) :
    matmul dot_S16384x32_S32x32_S16384x32_1_1_0_0_n_n none a b (constant (F := Ideal) S16384x32 .f32 0x00000000#32) (ix2 r p)
      = ∑ k : Fin 32, a (ix2 r k) * b (ix2 p k) := by
  show FloatOps.matmul dot_S16384x32_S32x32_S16384x32_1_1_0_0_n_n none a b (constant S16384x32 .f32 0x00000000#32) (ix2 r p) = _
  rw [Ideal.matmul_constant_zero_apply, ← Equiv.sum_comp (ValueIdx.contrEquiv1 dot_S16384x32_S32x32_S16384x32_1_1_0_0_n_n 32 rfl rfl).symm]
  refine Finset.sum_congr rfl fun k _ => ?_
  have hk := ValueIdx.contrEquiv1_symm_val dot_S16384x32_S32x32_S16384x32_1_1_0_0_n_n 32 rfl rfl k
  have el : dot_S16384x32_S32x32_S16384x32_1_1_0_0_n_n.lhsIdx (ix2 r p) ((ValueIdx.contrEquiv1 dot_S16384x32_S32x32_S16384x32_1_1_0_0_n_n 32 rfl rfl).symm k) = ix2 r k := funext fun a => Fin.ext (by
    match a with
    | ⟨0, _⟩ => exact lhs_row _ _
    | ⟨1, _⟩ => exact (lhs_col _ _).trans hk)
  have er : dot_S16384x32_S32x32_S16384x32_1_1_0_0_n_n.rhsIdx (ix2 r p) ((ValueIdx.contrEquiv1 dot_S16384x32_S32x32_S16384x32_1_1_0_0_n_n 32 rfl rfl).symm k) = ix2 p k := funext fun a => Fin.ext (by
    match a with
    | ⟨0, _⟩ => exact rhs_row _ _
    | ⟨1, _⟩ => exact (rhs_col _ _).trans hk)
  rw [el, er]

/-! ## The layout casts at an index -/

/-- The [1, 16384, 32] block viewed [16384, 32]. -/
theorem dropx_at {α : Type} (v : S1x16384x32.Idx → α) (r : Fin 16384) (p : Fin 32) :
    shapeCast S16384x32 v shapeCasts_S1x16384x32_S16384x32 (ix2 r p) = v (ix3 (0 : Fin 1) r p) :=
  shapeCast_apply v shapeCasts_S1x16384x32_S16384x32 (ix2 r p) (ix3 (0 : Fin 1) r p)
    (by rewrite [Shape.rowMajor_val_three, Shape.rowMajor_val_two]; show (0 * 16384 + r.val) * 32 + p.val = r.val * 32 + p.val; omega)

/-- The [1, 32, 32] block viewed [32, 32]. -/
theorem dropw_at {α : Type} (v : S1x32x32.Idx → α) (p : Fin 32) (k : Fin 32) :
    shapeCast S32x32 v shapeCasts_S1x32x32_S32x32 (ix2 p k) = v (ix3 (0 : Fin 1) p k) :=
  shapeCast_apply v shapeCasts_S1x32x32_S32x32 (ix2 p k) (ix3 (0 : Fin 1) p k)
    (by rewrite [Shape.rowMajor_val_three, Shape.rowMajor_val_two]; show (0 * 32 + p.val) * 32 + k.val = p.val * 32 + k.val; omega)

/-- The [16384, 32] result stored as a [1, 16384, 32] block. -/
theorem addx_at {α : Type} (v : S16384x32.Idx → α) (r : Fin 16384) (p : Fin 32) :
    shapeCast S1x16384x32 v shapeCasts_S16384x32_S1x16384x32 (ix3 (0 : Fin 1) r p) = v (ix2 r p) :=
  shapeCast_apply v shapeCasts_S16384x32_S1x16384x32 (ix3 (0 : Fin 1) r p) (ix2 r p)
    (by rewrite [Shape.rowMajor_val_three, Shape.rowMajor_val_two]; show r.val * 32 + p.val = (0 * 16384 + r.val) * 32 + p.val; omega)

/-! ## The body's payload at an index -/

/-- What the body stores, entry by entry: x[r, p] + Σ_j x[r, j] · w[p, j]. -/
theorem pay_at (x0 : Vec Ideal S1x16384x32 .f32) (x1 : Vec Ideal S1x32x32 .f32) (r : Fin 16384) (p : Fin 32) :
    k1_pay1 x0 x1 (ix3 (0 : Fin 1) r p) = x0 (ix3 (0 : Fin 1) r p) + ∑ j : Fin 32, x0 (ix3 (0 : Fin 1) r j) * x1 (ix3 (0 : Fin 1) p j) := by
  unfold k1_pay1
  refine (addx_at _ r p).trans ?_
  refine (addf_apply _ _ (ix2 r p)).trans ?_
  refine congrArg₂ (· + ·) (dropx_at x0 r p) ?_
  refine (matmul_at _ _ r p).trans ?_
  refine Finset.sum_congr rfl fun k _ => ?_
  exact congrArg₂ (· * ·) ((truncf_apply (ψ := .bf16) _ bitsLt_bf16_f32 (ix2 r k)).trans (dropx_at x0 r k))
    ((truncf_apply (ψ := .bf16) _ bitsLt_bf16_f32 (ix2 p k)).trans (dropw_at x1 p k))

/-! ## What the body leaves in its output block -/

theorem zeros3 : (![0, 0, 0] : Fin 3 → Nat) = fun _ => 0 := funext fun a => by fin_cases a <;> rfl

/-- The body loads both whole blocks and stores once over the whole output block: the block ends at the payload. -/
theorem out_eq (x0 : Vec Ideal S1x16384x32 .f32) (x1 : Vec Ideal S1x32x32 .f32) : out1_2 x0 x1 = k1_pay1 x0 x1 := by
  unfold out1_2
  rw [View.canon_unit_zero zeros3]
  simp only [View.ld_unit_zero (S := S1x16384x32) zeros3, View.ld_unit_zero (S := S1x32x32) zeros3]

/-! ## The grid: point t is batch entry t / 16, row block t % 16 -/

/-- The printed index maps, decided once over the 64 grid points. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = t.val % 16 ∧ win1_2.index t (2 : Fin 3) = 0 :=
  (by decide +kernel : ∀ t : Fin grid1.N, _)

theorem lt64 (t : Fin cfg1.N) : t.val < 64 := Nat.lt_of_lt_of_eq t.isLt (show cfg1.N = 64 from N_1)

/-- The batch entry of a grid point. -/
def batchOf (t : Fin cfg1.N) : Fin 4 := ⟨t.val / 16, by have := lt64 t; omega⟩
/-- The array row of row r of a grid point's block. -/
def rowOf (t : Fin cfg1.N) (r : Fin 16384) : Fin 262144 := ⟨t.val % 16 * 16384 + r.val, by have := r.isLt; omega⟩

variable (V : (c : Dev nD) → (b : Ref sig .tc) → Buf (Elt Ideal) ((c : Thread nD τ).loc b))

/-- The residual output of the region's two input arrays as it finds them. -/
abbrev gatedBuf (c : Dev nD) : Buf (Elt Ideal) ((c : Thread nD τ).loc main_v14) :=
  Cert.Attn.gated (V c main_v0) (V c main_v13)

/-- The region's input blocks and arrays at their literal types. -/
abbrev xblk (c : Dev nD) (t : Fin cfg1.N) : Vec Ideal S1x16384x32 .f32 := iblk1 V c 0 t
abbrev wblk (c : Dev nD) (t : Fin cfg1.N) : Vec Ideal S1x32x32 .f32 := iblk1 V c 1 t
abbrev qarr (c : Dev nD) : Vec Ideal S4x262144x32 .f32 := V c main_v0
abbrev warr (c : Dev nD) : Vec Ideal S4x32x32 .f32 := V c main_v13

/-! ## The blocks, read off the arrays -/

/-- Entry (r, p) of the row block at point t is q[t / 16, (t % 16)·16384 + r, p]. -/
theorem xblk_at (c : Dev nD) (t : Fin cfg1.N) (r : Fin 16384) (p : Fin 32) :
    xblk V c t (ix3 (0 : Fin 1) r p) = qarr V c (ix3 (batchOf t) (rowOf t r) p) := by
  obtain ⟨e0, e1, e2, -, -, -, -, -, -⟩ := idx_facts t
  show qarr V c (((cfg1.win 0).blk t).view.emb (ix3 (0 : Fin 1) r p)) = _
  refine congrArg (qarr V c) (funext fun a => Fin.ext ?_)
  match a with
  | ⟨0, _⟩ => show win1_0.index t (0 : Fin 3) * 1 + 1 * (0 : Fin 1).val = t.val / 16; rw [e0]; simp
  | ⟨1, _⟩ => show win1_0.index t (1 : Fin 3) * 16384 + 1 * r.val = t.val % 16 * 16384 + r.val; rw [e1]; omega
  | ⟨2, _⟩ => show win1_0.index t (2 : Fin 3) * 32 + 1 * p.val = p.val; rw [e2]; omega

/-- Entry (p, j) of the matrix block at point t is w[t / 16, p, j]. -/
theorem wblk_at (c : Dev nD) (t : Fin cfg1.N) (p : Fin 32) (j : Fin 32) :
    wblk V c t (ix3 (0 : Fin 1) p j) = warr V c (ix3 (batchOf t) p j) := by
  obtain ⟨-, -, -, e0, e1, e2, -, -, -⟩ := idx_facts t
  show warr V c (((cfg1.win 1).blk t).view.emb (ix3 (0 : Fin 1) p j)) = _
  refine congrArg (warr V c) (funext fun a => Fin.ext ?_)
  match a with
  | ⟨0, _⟩ => show win1_1.index t (0 : Fin 3) * 1 + 1 * (0 : Fin 1).val = t.val / 16; rw [e0]; simp
  | ⟨1, _⟩ => show win1_1.index t (1 : Fin 3) * 32 + 1 * p.val = p.val; rw [e1]; omega
  | ⟨2, _⟩ => show win1_1.index t (2 : Fin 3) * 32 + 1 * j.val = j.val; rw [e2]; omega

/-- Entry (r, p) of the output block at point t sits in the output array at [t / 16, (t % 16)·16384 + r, p]. -/
theorem oblk_emb (t : Fin cfg1.N) (r : Fin 16384) (p : Fin 32) :
    (((cfg1.win 2).blk t).view.emb (ix3 (0 : Fin 1) r p) : S4x262144x32.Idx) = ix3 (batchOf t) (rowOf t r) p := by
  obtain ⟨-, -, -, -, -, -, e0, e1, e2⟩ := idx_facts t
  refine funext fun a => Fin.ext ?_
  match a with
  | ⟨0, _⟩ => show win1_2.index t (0 : Fin 3) * 1 + 1 * (0 : Fin 1).val = t.val / 16; rw [e0]; simp
  | ⟨1, _⟩ => show win1_2.index t (1 : Fin 3) * 16384 + 1 * r.val = t.val % 16 * 16384 + r.val; rw [e1]; omega
  | ⟨2, _⟩ => show win1_2.index t (2 : Fin 3) * 32 + 1 * p.val = p.val; rw [e2]; omega

/-! ## What a grid point writes back -/

/-- Point t writes back its block of the residual output of the two arrays. -/
theorem flushed_eq (c : Dev nD) (t : Fin cfg1.N) :
    (dat1 V c).flushed 2 t = ((cfg1.win 2).blk t).view.read (Elt Ideal) (gatedBuf V c) := by
  show (cfg1.win 2).cut (grid1.coords t) ((dat1 V c).after 2 t) = _
  rw [after1_2]
  funext j
  obtain ⟨a, r, p, rfl⟩ : ∃ (a : Fin 1) (r : Fin 16384) (p : Fin 32), j = ix3 a r p := ⟨j 0, j 1, j 2, eq_ix3 j⟩
  obtain rfl : a = 0 := Fin.eq_zero a
  show out1_2 (xblk V c t) (wblk V c t) (ix3 (0 : Fin 1) r p)
    = Cert.Attn.gated (qarr V c) (warr V c) (((cfg1.win 2).blk t).view.emb (ix3 (0 : Fin 1) r p))
  rw [out_eq (xblk V c t) (wblk V c t), oblk_emb t r p]
  refine (pay_at (xblk V c t) (wblk V c t) r p).trans ?_
  show _ = qarr V c (ix3 (batchOf t) (rowOf t r) p)
    + ∑ j : Fin 32, qarr V c (ix3 (batchOf t) (rowOf t r) j) * warr V c (ix3 (batchOf t) p j)
  rw [xblk_at V c t r p]
  refine congrArg (_ + ·) (Finset.sum_congr rfl fun j _ => ?_)
  rw [xblk_at V c t r j, wblk_at V c t p j]

/-! ## The output's blocks tile its array -/

/-- An index of the output array is in point t's block iff each coordinate is in the block's range on its axis. -/
theorem mem_blk (t : Fin cfg1.N) (i : S4x262144x32.Idx) :
    i ∈ ((cfg1.win 2).blk t).view.set ↔ ∀ a : Fin 3, win1_2.index t a * S1x16384x32.size a ≤ (i a).val ∧ (i a).val < win1_2.index t a * S1x16384x32.size a + S1x16384x32.size a := by
  show i ∈ ((View.whole main_v14).slice (win1_2.rect t)).set ↔ _
  rw [View.set_slice_whole, Rect.mem_set_unit]
  exact Iff.rfl

/-- Index (b, n, i) is in the block of point 16·b + n / 16384, and every point writes its block back. -/
theorem cover (i : S4x262144x32.Idx) :
    ∃ t : Fin cfg1.N, (cfg1.win 2).flush t = true ∧ i ∈ ((cfg1.win 2).blk t).view.set := by
  have h0 : (i 0).val < 4 := (i 0).isLt
  have h1 : (i 1).val < 262144 := (i 1).isLt
  have h2 : (i 2).val < 32 := (i 2).isLt
  obtain ⟨t, tv⟩ : ∃ t : Fin cfg1.N, t.val = 16 * (i 0).val + (i 1).val / 16384 :=
    ⟨⟨16 * (i 0).val + (i 1).val / 16384, Nat.lt_of_lt_of_eq (by omega) (show cfg1.N = 64 from N_1).symm⟩, rfl⟩
  obtain ⟨-, -, -, -, -, -, e0, e1, e2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; rw [e0, tv]; omega
  | ⟨1, _⟩ => show win1_2.index t (1 : Fin 3) * 16384 ≤ (i 1).val ∧ (i 1).val < win1_2.index t (1 : Fin 3) * 16384 + 16384; rw [e1, tv]; omega
  | ⟨2, _⟩ => show win1_2.index t (2 : Fin 3) * 32 ≤ (i 2).val ∧ (i 2).val < win1_2.index t (2 : Fin 3) * 32 + 32; rw [e2]; omega

/-- After the region its output array holds the residual output. -/
theorem arr_eq (c : Dev nD) : (dat1 V c).arrAt 2 cfg1.N = gatedBuf V c :=
  (dat1 V c).arrAt_eq_of_cover 2 (gatedBuf V c) (fun t _ => flushed_eq V c t) cover

end Cert.KernelIdeal.Region1

end
-- ==== Proof.KernelValue.lean ====
/-
  The kernel's result as one function of its two inputs, at the extended reals: the fold of the buffer
  contents through @main's segments ends, at the result buffer, in the un-flattening of the second call's
  output; that is the residual re-mixing of the flattened first input by the softmax of the first call's
  output; and that is the correlation of the two flattened inputs.
-/
import proofs.«173665_j55095840473688_1_alg».proof.Proof.RunNamed
import proofs.«173665_j55095840473688_1_alg».proof.Proof.Boundaries
import proofs.«173665_j55095840473688_1_alg».proof.Proof.Region0
import proofs.«173665_j55095840473688_1_alg».proof.Proof.Region1

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.Attn

variable (m : (ℓ : Loc nD τ sig) → Buf (Elt Ideal) ℓ) (ρ : Dev nD → PrngReg)

/-- Leaving the first call, its output array holds the correlation of the two flattened inputs. -/
theorem W2_v2 (c : Dev nD) :
    W2 m ρ c (Proc.devRef .tc main_v2)
      = corr (shapeCast SQ (m ((c : Thread nD τ).loc main_arg0)) h53) (shapeCast SQ (m ((c : Thread nD τ).loc main_arg1)) h53) := by
  refine ((W2_arr m ρ c 2).trans (Region0.arr_eq (V1 m ρ) c)).trans ?_
  show corr (W1 m ρ c (Proc.devRef .tc main_v0)) (W1 m ρ c (Proc.devRef .tc main_v1)) = _
  rw [Boundaries.W1_v0, Boundaries.W1_v1]

/-- Leaving the second call, its output array holds the residual re-mixing of what it found. -/
theorem W4_v14 (c : Dev nD) :
    W4 m ρ c (Proc.devRef .tc main_v14)
      = gated (W3 m ρ c (Proc.devRef .tc main_v0)) (W3 m ρ c (Proc.devRef .tc main_v13)) :=
  (W4_arr m ρ c 2).trans (Region1.arr_eq (V3 m ρ) c)

/-- The result buffer at the last boundary holds the specified function of the two inputs. -/
theorem W5_eq (c : Dev nD) :
    W5 m ρ c (Proc.devRef .tc main_v15)
      = attention (m ((c : Thread nD τ).loc main_arg0)) (m ((c : Thread nD τ).loc main_arg1)) := by
  rw [Boundaries.W5_v15, W4_v14, Boundaries.W3_v13, W2_v2, Boundaries.W3_v0, Boundaries.W2_v0, Boundaries.W1_v0]
  rfl

/-- The kernel's run with its result named. -/
theorem run : θ_run defs (onTc (τ := τ) (main (F := Ideal))) ⟨m, fun _ => 0, ρ⟩ (fun r => ∀ c : Dev nD,
      r.2.mem ((c.tc : Thread nD τ).loc main_v15)
        = attention (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W5_eq m ρ c), (h c).2⟩) (run_named m ρ)

end Cert.KernelIdeal.KernelValue

end
-- ==== Proof.RefValue.lean ====
/-
  The reference read at the extended reals: its two batched dot_generals are the correlation over the flattened
  positions and the re-mixing of the channels, the chain between them is the row-wise softmax, and adding the
  first input to the un-flattened product is the un-flattening of the residual sum, because flattening and
  un-flattening an array gives it back.
-/
import proofs.«173665_j55095840473688_1_alg».proof.Proof.Gen.ReferenceIdeal.Run
import proofs.«173665_j55095840473688_1_alg».proof.Proof.Gen.ReferenceIdeal.Read
import proofs.«173665_j55095840473688_1_alg».proof.Proof.Softmax
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.Attn

variable (x0 x1 : SX.Idx → EReal)

/-- The flattened inputs. -/
abbrev Q : SQ.Idx → EReal := shapeCast SQ x0 h53
abbrev K : SQ.Idx → EReal := shapeCast SQ x1 h53

/-- The first dot_general (batch axis 0, contracting the position axis) is the correlation. -/
theorem v2_eq : val_main_v2 (F := Ideal) x0 x1 = corr (Q x0) (K x1) := by
  funext i
  rw [val_main_v2_apply]
  show _ = ∑ n : Fin 262144, Q x0 (ix3 (i 0) n (i 1)) * K x1 (ix3 (i 0) n (i 2))
  refine Finset.sum_congr rfl fun n _ => ?_
  have el : lidx_main_v2 i n = ix3 (i 0) n (i 1) := funext fun a => by
    match a with | ⟨0, _⟩ => rfl | ⟨1, _⟩ => rfl | ⟨2, _⟩ => rfl
  have er : ridx_main_v2 i n = ix3 (i 0) n (i 2) := funext fun a => by
    match a with | ⟨0, _⟩ => rfl | ⟨1, _⟩ => rfl | ⟨2, _⟩ => rfl
  rw [el, er]
  rfl

/-- The chain between the two dot_generals is the row-wise softmax of the first one's result. -/
theorem v13_eq : val_main_v13 (F := Ideal) x0 x1 = rowSoftmax (val_main_v2 (F := Ideal) x0 x1) := rfl

/-- The second dot_general (batch axis 0, contracting the channel axis of both) is the re-mixing. -/
theorem v14_eq : val_main_v14 (F := Ideal) x0 x1
    = fun y => mixAt (Q x0) (rowSoftmax (corr (Q x0) (K x1))) (y 0) (y 1) (y 2) := by
  funext i
  rw [val_main_v14_apply, v13_eq, v2_eq]
  show _ = ∑ j : Fin 32, Q x0 (ix3 (i 0) (i 1) j) * rowSoftmax (corr (Q x0) (K x1)) (ix3 (i 0) (i 2) j)
  refine Finset.sum_congr rfl fun j _ => ?_
  have el : lidx_main_v14 i j = ix3 (i 0) (i 1) j := funext fun a => by
    match a with | ⟨0, _⟩ => rfl | ⟨1, _⟩ => rfl | ⟨2, _⟩ => rfl
  have er : ridx_main_v14 i j = ix3 (i 0) (i 2) j := funext fun a => by
    match a with | ⟨0, _⟩ => rfl | ⟨1, _⟩ => rfl | ⟨2, _⟩ => rfl
  rw [el, er]
  rfl

/-- Adding an array to an un-flattened one is un-flattening the sum with its flattening. -/
theorem add_unflatten (D : SQ.Idx → EReal) :
    (addf (F := Ideal) (φ := .f32) (s := SX) x0 (shapeCast SX D h35) : SX.Idx → EReal)
      = shapeCast SX (fun y => Q x0 y + D y) h35 :=
  calc (addf (F := Ideal) (φ := .f32) (s := SX) x0 (shapeCast SX D h35) : SX.Idx → EReal)
      = addf (F := Ideal) (φ := .f32) (s := SX) (shapeCast SX (shapeCast SQ x0 h53) h35) (shapeCast SX D h35) := by
        rw [shapeCast_shapeCast]
    _ = _ := rfl

/-- The reference's result is the specified function of its two inputs. -/
theorem result_eq : val_main_v16 (F := Ideal) x0 x1 = attention x0 x1 := by
  show addf (F := Ideal) (φ := .f32) (s := SX) x0 (shapeCast SX (val_main_v14 (F := Ideal) x0 x1) h35) = _
  rw [v14_eq, add_unflatten]
  rfl

end Cert.ReferenceIdeal.RefValue

end
-- ==== Proof.lean ====
/-
  The certificate of a channel-wise attention gate: with q, k the two inputs flattened to [4, 262144, 32],
  out = q + q · softmax_j (Σ_n q[b,n,i] · k[b,n,j])ᵀ. The kernel computes the correlation matrix in a first
  pallas_call that accumulates 16 row blocks per batch entry, takes the softmax on the host, and forms the
  residual product block by block in a second call; the reference does the same with two batched dot_generals.
  Over the extended reals both are the one function `Cert.Attn.attention` of the inputs: a sum over 262144
  positions is the sum of its 16 blocks' sums (sums of extended reals regroup freely), the softmax chains are
  the same term applied to equal arrays, and flattening then un-flattening an array gives it back. No
  finiteness of the inputs is used.
-/
import proofs.«173665_j55095840473688_1_alg».proof.Defs
import proofs.«173665_j55095840473688_1_alg».proof.Proof.Gen.Kernel
import proofs.«173665_j55095840473688_1_alg».proof.Proof.Gen.Kernel.Skeleton
import proofs.«173665_j55095840473688_1_alg».proof.Proof.Gen.Kernel.Launch
import proofs.«173665_j55095840473688_1_alg».proof.Proof.Gen.Kernel.Points
import proofs.«173665_j55095840473688_1_alg».proof.Proof.Gen.Kernel.Frame
import proofs.«173665_j55095840473688_1_alg».proof.Proof.Gen.KernelIdeal
import proofs.«173665_j55095840473688_1_alg».proof.Proof.Gen.KernelIdeal.Skeleton
import proofs.«173665_j55095840473688_1_alg».proof.Proof.Gen.KernelIdeal.Launch
import proofs.«173665_j55095840473688_1_alg».proof.Proof.Gen.KernelIdeal.Points
import proofs.«173665_j55095840473688_1_alg».proof.Proof.Gen.KernelIdeal.Frame
import proofs.«173665_j55095840473688_1_alg».proof.Proof.Gen.ReferenceIdeal
import proofs.«173665_j55095840473688_1_alg».proof.Proof.Gen.ReferenceIdeal.Run
import proofs.«173665_j55095840473688_1_alg».proof.Proof.Gen.ReferenceIdeal.Read
import proofs.«173665_j55095840473688_1_alg».proof.Proof.Gen.Pre_finite_inputs
import proofs.«173665_j55095840473688_1_alg».proof.Proof.KernelValue
import proofs.«173665_j55095840473688_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The kernel read at the extended reals runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `Cert.Attn.attention` of arguments that agree. -/
theorem algebraic : Cert.algebraic_KernelIdeal_ReferenceIdeal := by
  intro m ρ m' ρ' _ hagree
  refine ⟨fun c => Cert.Attn.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v16_eq _ _).trans (Cert.ReferenceIdeal.RefValue.result_eq _ _)).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
